-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  reducesTo_S_S_d : S_.ReducesTo [] S_

variable [Facts]

def fn_part1 {F : FTy → Type} [FloatOps F] (main_arg4 : FVec F S_ .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S_ .f32 := Host.absf main_arg4
  let main_cst_6 : FVec F S_ .f32 := constant S_ .f32 0x7F800000#32
  let main_v20 : IVec S_ 1 := cmpf .olt main_v19 main_cst_6
  let main_c_7 : IVec S_ 1 := constantI S_ 1 1#1
  let main_v21 : IVec S_ 1 := (fun x v => Host.reduce IntOp.andi x v reducesTo_S_S_d h_S_) main_v20 main_c_7
  let main_v22 : IVec S_ 1 := andi main_v18 main_v21
  main_v22

def fn {F : FTy → Type} [FloatOps F] (main_arg0 : FVec F S10000x512 .f32) (main_arg1 : FVec F S10000x10000 .f32) (main_arg2 : FVec F S512x512 .f32) (main_arg3 : FVec F S512 .f32) (main_arg4 : FVec F S_ .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_v13 main_v16
-- ==== Kernel.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S_ : Shape := ⟨0, ![]⟩
abbrev S2000x512 : Shape := ⟨2, ![2000, 512]⟩
abbrev S1x512 : Shape := ⟨2, ![1, 512]⟩
abbrev S1x1 : Shape := ⟨2, ![1, 1]⟩
abbrev S200x10000 : Shape := ⟨2, ![200, 10000]⟩
abbrev S200x512 : Shape := ⟨2, ![200, 512]⟩

abbrev nBuf : Space → Nat
  | .hbm => 9
  | .vmem => 12
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x512, .f32⟩
  | .hbm, ⟨3, _⟩ => ⟨S512, .f32⟩
  | .hbm, ⟨4, _⟩ => ⟨S_, .f32⟩
  | .hbm, ⟨5, _⟩ => ⟨S10000x512, .f32⟩
  | .hbm, ⟨6, _⟩ => ⟨S1x512, .f32⟩
  | .hbm, ⟨7, _⟩ => ⟨S1x1, .f32⟩
  | .hbm, ⟨8, _⟩ => ⟨S10000x512, .f32⟩
  | .local _ .vmem, ⟨0, _⟩ => ⟨S2000x512, .f32⟩
  | .local _ .vmem, ⟨1, _⟩ => ⟨S2000x512, .f32⟩
  | .local _ .vmem, ⟨2, _⟩ => ⟨S512x512, .f32⟩
  | .local _ .vmem, ⟨3, _⟩ => ⟨S2000x512, .f32⟩
  | .local _ .vmem, ⟨4, _⟩ => ⟨S2000x512, .f32⟩
  | .local _ .vmem, ⟨5, _⟩ => ⟨S200x10000, .f32⟩
  | .local _ .vmem, ⟨6, _⟩ => ⟨S200x10000, .f32⟩
  | .local _ .vmem, ⟨7, _⟩ => ⟨S10000x512, .f32⟩
  | .local _ .vmem, ⟨8, _⟩ => ⟨S1x512, .f32⟩
  | .local _ .vmem, ⟨9, _⟩ => ⟨S1x1, .f32⟩
  | .local _ .vmem, ⟨10, _⟩ => ⟨S200x512, .f32⟩
  | .local _ .vmem, ⟨11, _⟩ => ⟨S200x512, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S200x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S2000x512_S2000x512_0_0 : ∀ a, (![0, 0] : Fin 2 → Nat) a + S2000x512.size a ≤ S2000x512.size a
  h_S2000x512 : 0 < S2000x512.numel
  inb_S512x512_S512x512_0_0 : ∀ a, (![0, 0] : Fin 2 → Nat) a + S512x512.size a ≤ S512x512.size a
  h_S512x512 : 0 < S512x512.numel
  shapeCasts_S512_S1x512 : S512.ShapeCasts S1x512
  shapeCasts_S_S1x1 : S_.ShapeCasts S1x1
  inb_S200x10000_S200x10000_0_0 : ∀ a, (![0, 0] : Fin 2 → Nat) a + S200x10000.size a ≤ S200x10000.size a
  h_S200x10000 : 0 < S200x10000.numel
  inb_S10000x512_S10000x512_0_0 : ∀ a, (![0, 0] : Fin 2 → Nat) a + S10000x512.size a ≤ S10000x512.size a
  h_S10000x512 : 0 < S10000x512.numel
  shapeCasts_S10000x512_S10000x512 : S10000x512.ShapeCasts S10000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S200x512 : S1x512.Broadcasts S200x512
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S200x512_S200x512_0_0 : ∀ a, (![0, 0] : Fin 2 → Nat) a + S200x512.size a ≤ S200x512.size a
  h_S200x512 : 0 < S200x512.numel
  dot_S2000x512_S512x512_S2000x512_1_1_0_0_n_n_wf : DotDims.WF S2000x512 S512x512 S2000x512 [1] [1] [0] [0] [] []
  dot_S200x10000_S10000x512_S200x512_1_0_0_1_n_n_wf : DotDims.WF S200x10000 S10000x512 S200x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S10000x512.size a
  hwx0_0 : ∀ i : grid0.Coords, EltTy.bits .f32 = 32 ∨ (Rect.block (s := S10000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x512.size a ≤ S10000x512.size a
  hwx0_2 : ∀ i : grid0.Coords, EltTy.bits .f32 = 32 ∨ (Rect.block (s := S10000x512) S2000x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x512.size a ≤ S10000x512.size a
  hwx1_1 : ∀ i : grid1.Coords, EltTy.bits .f32 = 32 ∨ (Rect.block (s := S10000x512) S10000x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S200x512.size a ≤ S10000x512.size a
  hwx1_4 : ∀ i : grid1.Coords, EltTy.bits .f32 = 32 ∨ (Rect.block (s := S10000x512) S200x512.size (cc1_transform_4 i) (hinb1_4 i)).WholeWords (EltTy.packing .f32)

variable [Facts₀]

def dot_S2000x512_S512x512_S2000x512_1_1_0_0_n_n : DotDims S2000x512 S512x512 S2000x512 where
  lhsContracting := [1]
  rhsContracting := [1]
  lhsNonContracting := [0]
  rhsNonContracting := [0]
  lhsBatch := []
  rhsBatch := []
  wf := dot_S2000x512_S512x512_S2000x512_1_1_0_0_n_n_wf
def dot_S200x10000_S10000x512_S200x512_1_0_0_1_n_n : DotDims S200x10000 S10000x512 S200x512 where
  lhsContracting := [1]
  rhsContracting := [0]
  lhsNonContracting := [0]
  rhsNonContracting := [1]
  lhsBatch := []
  rhsBatch := []
  wf := dot_S200x10000_S10000x512_S200x512_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S200x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S10000x512 : Shape := ⟨2, ![10000, 512]⟩
abbrev S10000x10000 : Shape := ⟨2, ![10000, 10000]⟩
abbrev S512x512 : Shape := ⟨2, ![512, 512]⟩
abbrev S512 : Shape := ⟨1, ![512]⟩
abbrev S_ : Shape := ⟨0, ![]⟩
abbrev S1x512 : Shape := ⟨2, ![1, 512]⟩

abbrev nBuf : Space → Nat
  | .hbm => 17
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S10000x10000, .f32⟩
  | .hbm, ⟨2, _⟩ => ⟨S512x512, .f32⟩
  | .hbm, ⟨3, _⟩ => ⟨S512, .f32⟩
  | .hbm, ⟨4, _⟩ => ⟨S_, .f32⟩
  | .hbm, ⟨5, _⟩ => ⟨S512x512, .f32⟩
  | .hbm, ⟨6, _⟩ => ⟨S10000x512, .f32⟩
  | .hbm, ⟨7, _⟩ => ⟨S10000x512, .f32⟩
  | .hbm, ⟨8, _⟩ => ⟨S1x512, .f32⟩
  | .hbm, ⟨9, _⟩ => ⟨S10000x512, .f32⟩
  | .hbm, ⟨10, _⟩ => ⟨S10000x512, .f32⟩
  | .hbm, ⟨11, _⟩ => ⟨S_, .f32⟩
  | .hbm, ⟨12, _⟩ => ⟨S10000x512, .f32⟩
  | .hbm, ⟨13, _⟩ => ⟨S10000x512, .i1⟩
  | .hbm, ⟨14, _⟩ => ⟨S10000x512, .f32⟩
  | .hbm, ⟨15, _⟩ => ⟨S10000x512, .f32⟩
  | .hbm, ⟨16, _⟩ => ⟨S10000x512, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  transposes_S512x512_S512x512_1_0 : S512x512.Transposes [1, 0] S512x512
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S_S10000x512 : S_.BroadcastsInDim S10000x512 (![] : Fin 0 → Fin S10000x512.rank)
  dot_S10000x512_S512x512_S10000x512_1_0_0_1_n_n_wf : DotDims.WF S10000x512 S512x512 S10000x512 [1] [0] [0] [1] [] []
  dot_S10000x10000_S10000x512_S10000x512_1_0_0_1_n_n_wf : DotDims.WF S10000x10000 S10000x512 S10000x512 [1] [0] [0] [1] [] []

variable [Facts₀]

def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def dot_S10000x10000_S10000x512_S10000x512_1_0_0_1_n_n : DotDims S10000x10000 S10000x512 S10000x512 where
  lhsContracting := [1]
  rhsContracting := [0]
  lhsNonContracting := [0]
  rhsNonContracting := [1]
  lhsBatch := []
  rhsBatch := []
  wf := dot_S10000x10000_S10000x512_S10000x512_1_0_0_1_n_n_wf

class Facts : Prop extends Facts₀ where

variable [Facts]
-- ==== Proof.PayProj.lean ====
/-
  The first kernel's arithmetic at one entry of its block. The body multiplies a 2000 × 512 block of x by the whole
  512 × 512 weight, contracting the SECOND axis of both (x · Wᵀ), into a zero accumulator; on the extended reals the
  entry (p, q) of that product is the plain sum over l of x(p, l) · W(q, l).
-/
import proofs.«133778_g34720515621625_cont_sun_m_1007_4_alg».proof.Proof.Gen.KernelIdeal.Skeleton
import Idealize.ShloMosaic.PureOps.Ideal.Laws
import Idealize.ShloMosaic.Lib.ValueIdx

noncomputable section

namespace Cert.KernelIdeal.Pay

open Cert.KernelIdeal Cert.KernelIdeal.Gen Idealize.ShloMosaic Idealize.ShloMosaic.ValueIdx

/-- The left operand's row is the output's row. -/
theorem lhs_proj_0 (i : S2000x512.Idx) (k : dot_S2000x512_S512x512_S2000x512_1_1_0_0_n_n.contr.Idx) :
    (dot_S2000x512_S512x512_S2000x512_1_1_0_0_n_n.lhsIdx i k 0).val = (i 0).val := by
  unfold DotDims.lhsIdx
  rw [dif_neg (show ¬(0 : Fin S2000x512.rank) ∈ dot_S2000x512_S512x512_S2000x512_1_1_0_0_n_n.lhsBatch by decide), dif_pos (show (0 : Fin S2000x512.rank) ∈ dot_S2000x512_S512x512_S2000x512_1_1_0_0_n_n.lhsNonContracting by decide)]
  rfl
/-- The left operand's column is the contracted coordinate. -/
theorem lhs_proj_1 (i : S2000x512.Idx) (k : dot_S2000x512_S512x512_S2000x512_1_1_0_0_n_n.contr.Idx) :
    (dot_S2000x512_S512x512_S2000x512_1_1_0_0_n_n.lhsIdx i k 1).val = (k ⟨0, by decide⟩).val :=
  dot_S2000x512_S512x512_S2000x512_1_1_0_0_n_n.lhsIdx_val_of_single rfl i k
/-- The right operand's ROW is the output's column (the weight enters transposed). -/
theorem rhs_proj_0 (i : S2000x512.Idx) (k : dot_S2000x512_S512x512_S2000x512_1_1_0_0_n_n.contr.Idx) :
    (dot_S2000x512_S512x512_S2000x512_1_1_0_0_n_n.rhsIdx i k 0).val = (i 1).val := by
  unfold DotDims.rhsIdx
  rw [dif_neg (show ¬(0 : Fin S512x512.rank) ∈ dot_S2000x512_S512x512_S2000x512_1_1_0_0_n_n.rhsBatch by decide), dif_pos (show (0 : Fin S512x512.rank) ∈ dot_S2000x512_S512x512_S2000x512_1_1_0_0_n_n.rhsNonContracting by decide)]
  rfl
/-- The right operand's COLUMN is the contracted coordinate. -/
theorem rhs_proj_1 (i : S2000x512.Idx) (k : dot_S2000x512_S512x512_S2000x512_1_1_0_0_n_n.contr.Idx) :
    (dot_S2000x512_S512x512_S2000x512_1_1_0_0_n_n.rhsIdx i k 1).val = (k ⟨0, by decide⟩).val :=
  dot_S2000x512_S512x512_S2000x512_1_1_0_0_n_n.rhsIdx_val_of_single rfl i k

/-- The first kernel's stored value at (p, q) of its block: Σ_l x(p, l) · W(q, l). -/
theorem pay_proj (v0 : FVec Ideal S2000x512 .f32) (v1 : FVec Ideal S512x512 .f32) (p : Fin 2000) (q : Fin 512) :
    k0_pay1 (F := Ideal) v0 v1 (ix2 p q) = ∑ l : Fin 512, v0 (ix2 p l) * v1 (ix2 q l) := by
  unfold k0_pay1
  show FloatOps.matmul dot_S2000x512_S512x512_S2000x512_1_1_0_0_n_n none v0 v1 (constant S2000x512 .f32 0x00000000#32) (ix2 p q) = _
  rw [Ideal.matmul_constant_zero_apply, ← Equiv.sum_comp (contrEquiv1 dot_S2000x512_S512x512_S2000x512_1_1_0_0_n_n 512 rfl rfl).symm]
  refine Finset.sum_congr rfl fun l _ => ?_
  have hl := contrEquiv1_symm_val dot_S2000x512_S512x512_S2000x512_1_1_0_0_n_n 512 rfl rfl l
  have el : dot_S2000x512_S512x512_S2000x512_1_1_0_0_n_n.lhsIdx (ix2 p q) ((contrEquiv1 dot_S2000x512_S512x512_S2000x512_1_1_0_0_n_n 512 rfl rfl).symm l) = ix2 p l := funext fun a => Fin.ext (by
    match a with
    | ⟨0, _⟩ => exact lhs_proj_0 _ _
    | ⟨1, _⟩ => exact (lhs_proj_1 _ _).trans hl)
  have er : dot_S2000x512_S512x512_S2000x512_1_1_0_0_n_n.rhsIdx (ix2 p q) ((contrEquiv1 dot_S2000x512_S512x512_S2000x512_1_1_0_0_n_n 512 rfl rfl).symm l) = ix2 q l := funext fun a => Fin.ext (by
    match a with
    | ⟨0, _⟩ => exact rhs_proj_0 _ _
    | ⟨1, _⟩ => exact (rhs_proj_1 _ _).trans hl)
  rw [el, er]

end Cert.KernelIdeal.Pay

end
-- ==== Proof.Spec.lean ====
/-
  The graph-convolution layer this certificate is about, written once as a function of its five arguments on the
  extended reals: features x (10000 × 512), a dense adjacency adj (10000 × 10000), a weight W (512 × 512), a bias b (512)
  and a slope a (one number).
    h(p, q)   = Σ_l x(p, l) · W(q, l)                      (the projection x · Wᵀ)
    o(p, q)   = Σ_k adj(p, k) · h(k, q) + b(q)              (aggregation over every node, plus the bias)
    out(p, q) = o(p, q) where o(p, q) ≥ 0, a · o(p, q) elsewhere   (the leaky rectifier with learnt slope)
  Both programs compute exactly this grouping of the two sums, so no law of the extended reals beyond reading each
  operation at an index is needed, and no finiteness.
-/
import Idealize.ShloMosaic.PureOps.Ideal.Laws
import Idealize.ShloMosaic.Lib.ValueIdx

noncomputable section

namespace Cert.Layer

open Idealize.ShloMosaic Idealize.ShloMosaic.ValueIdx

/-- The projection at the entry (p, q): the row p of x against the row q of W. -/
def projAt (x : FVec Ideal ⟨2, ![10000, 512]⟩ .f32) (W : FVec Ideal ⟨2, ![512, 512]⟩ .f32) (p : Fin 10000) (q : Fin 512) : EReal :=
  ∑ l : Fin 512, x (ix2 p l) * W (ix2 q l)

/-- The projected features as an array. -/
def proj (x : FVec Ideal ⟨2, ![10000, 512]⟩ .f32) (W : FVec Ideal ⟨2, ![512, 512]⟩ .f32) : FVec Ideal ⟨2, ![10000, 512]⟩ .f32 :=
  fun i => projAt x W (i 0) (i 1)

theorem proj_apply (x : FVec Ideal ⟨2, ![10000, 512]⟩ .f32) (W : FVec Ideal ⟨2, ![512, 512]⟩ .f32) (p : Fin 10000) (q : Fin 512) :
    proj x W (ix2 p q) = projAt x W p q := rfl

/-- The leaky rectifier with slope a: o itself where o is at least zero, a · o elsewhere. The zero is the
    f32 zero word both programs compare against. -/
def leaky (a o : EReal) : EReal :=
  Scalar.select (FloatOps.cmpf (F := Ideal) (φ := .f32) .oge o (FloatOps.ofBits (F := Ideal) .f32 0x00000000#32)) o (a * o)

/-- One entry of the layer from the projected features h: the row p of adj against the column q of h, plus the
    bias at q, through the rectifier. -/
def aggAt (adj : FVec Ideal ⟨2, ![10000, 10000]⟩ .f32) (h : FVec Ideal ⟨2, ![10000, 512]⟩ .f32) (b : Fin 512 → EReal) (a : EReal)
    (p : Fin 10000) (q : Fin 512) : EReal :=
  leaky a ((∑ k : Fin 10000, adj (ix2 p k) * h (ix2 k q)) + b q)

/-- The layer from the projected features, the bias given per column and the slope as a number. -/
def agg (adj : FVec Ideal ⟨2, ![10000, 10000]⟩ .f32) (h : FVec Ideal ⟨2, ![10000, 512]⟩ .f32) (b : Fin 512 → EReal) (a : EReal) :
    FVec Ideal ⟨2, ![10000, 512]⟩ .f32 :=
  fun i => aggAt adj h b a (i 0) (i 1)

theorem agg_apply (adj : FVec Ideal ⟨2, ![10000, 10000]⟩ .f32) (h : FVec Ideal ⟨2, ![10000, 512]⟩ .f32) (b : Fin 512 → EReal) (a : EReal)
    (p : Fin 10000) (q : Fin 512) : agg adj h b a (ix2 p q) = aggAt adj h b a p q := rfl

/-- The whole layer of the five argument arrays. -/
def layer (x : FVec Ideal ⟨2, ![10000, 512]⟩ .f32) (adj : FVec Ideal ⟨2, ![10000, 10000]⟩ .f32) (W : FVec Ideal ⟨2, ![512, 512]⟩ .f32)
    (b : FVec Ideal ⟨1, ![512]⟩ .f32) (a : FVec Ideal ⟨0, ![]⟩ .f32) : FVec Ideal ⟨2, ![10000, 512]⟩ .f32 :=
  agg adj (proj x W) (fun q => b (ix1 q)) (a ix0)

end Cert.Layer

end
-- ==== Proof.RegionProj.lean ====
/-
  The first call's result array. Its grid has five points; point t stages rows 2000·t … 2000·t + 1999 of x and all of W,
  and writes back the same rows of the projected array. An entry (p, q) of the block it writes is the row 2000·t + p of x
  against the row q of W, which is the projection's entry at the place the block lands; the five row blocks fill the
  array, so after the call the array holds the projection of whatever arrays the call found.
-/
import proofs.«133778_g34720515621625_cont_sun_m_1007_4_alg».proof.Proof.Gen.KernelIdeal.Frame
import proofs.«133778_g34720515621625_cont_sun_m_1007_4_alg».proof.Proof.PayProj
import proofs.«133778_g34720515621625_cont_sun_m_1007_4_alg».proof.Proof.Spec
import Idealize.ShloMosaic.Lib.Pipeline.Value
import Idealize.ShloMosaic.Lib.ValueIdx

set_option maxRecDepth 16384

noncomputable section

namespace Cert.KernelIdeal.RegionValue

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t of the first call writes back: block t of the projection of the arrays the call finds. -/
theorem flushed_proj (c : Dev nD) (t : Fin cfg0.N) :
    (dat0 V c).flushed 2 t = ((cfg0.win 2).blk t).view.read (Elt Ideal) (Cert.Layer.proj (V c main_arg0) (V c main_arg2)) := by
  show (cfg0.win 2).cut (grid0.coords t) ((dat0 V c).after 2 t) = _
  rw [after0_2]
  unfold out0_2
  rw [View.canon_unit_zero hz2]
  simp only [View.ld_unit_zero (S := S2000x512) hz2, View.ld_unit_zero (S := S512x512) hz2]
  obtain ⟨e0, e1, e2, e3, e4, e5⟩ := idx0 t
  funext j
  obtain ⟨p, q, rfl⟩ : ∃ (p : Fin 2000) (q : Fin 512), j = ix2 p q := ⟨j 0, j 1, eq_ix2 j⟩
  show k0_pay1 (F := Ideal) (iblk0 V c 0 t) (iblk0 V c 1 t) (ix2 p q)
    = Cert.Layer.proj (V c main_arg0) (V c main_arg2) (((cfg0.win 2).blk t).view.emb (ix2 p q))
  refine (Cert.KernelIdeal.Pay.pay_proj (iblk0 V c 0 t) (iblk0 V c 1 t) p q).trans ?_
  unfold Cert.Layer.proj Cert.Layer.projAt
  refine Finset.sum_congr rfl fun l _ => ?_
  -- the block of x at point t is rows 2000·t … of x, every column
  have h0 : iblk0 V c 0 t (ix2 p l) = V c main_arg0 (ix2 (((cfg0.win 2).blk t).view.emb (ix2 p q) 0) l) := by
    show V c main_arg0 (((cfg0.win 0).blk t).view.emb (ix2 p l)) = _
    refine congrArg (V c main_arg0) (funext fun a => Fin.ext ?_)
    match a with
    | ⟨0, _⟩ => show win0_0.index t (0 : Fin 2) * 2000 + 1 * p.val = win0_2.index t (0 : Fin 2) * 2000 + 1 * p.val; omega
    | ⟨1, _⟩ => show win0_0.index t (1 : Fin 2) * 512 + 1 * l.val = l.val; omega
  -- the block of W is all of W at every point
  have h1 : iblk0 V c 1 t (ix2 q l) = V c main_arg2 (ix2 (((cfg0.win 2).blk t).view.emb (ix2 p q) 1) l) := by
    show V c main_arg2 (((cfg0.win 1).blk t).view.emb (ix2 q l)) = _
    refine congrArg (V c main_arg2) (funext fun a => Fin.ext ?_)
    match a with
    | ⟨0, _⟩ => show win0_1.index t (0 : Fin 2) * 512 + 1 * q.val = win0_2.index t (1 : Fin 2) * 512 + 1 * q.val; omega
    | ⟨1, _⟩ => show win0_1.index t (1 : Fin 2) * 512 + 1 * l.val = l.val; omega
  rw [h0, h1]

/-- An index of the projected array is in point t's block iff each coordinate is in the block's range on its axis. -/
theorem mem_blk0 (t : Fin cfg0.N) (i : S10000x512.Idx) :
    i ∈ ((cfg0.win 2).blk t).view.set ↔ ∀ a : Fin 2, win0_2.index t a * S2000x512.size a ≤ (i a).val ∧ (i a).val < win0_2.index t a * S2000x512.size a + S2000x512.size a := by
  show i ∈ ((View.whole main_v0).slice (win0_2.rect t)).set ↔ _
  rw [View.set_slice_whole, Rect.mem_set_unit]
  exact Iff.rfl

/-- The five row blocks of 2000 rows fill the 10000 rows: row r is in the block of point r / 2000. -/
theorem cover0 (i : S10000x512.Idx) : ∃ t : Fin cfg0.N, (cfg0.win 2).flush t = true ∧ i ∈ ((cfg0.win 2).blk t).view.set := by
  have hi0 : (i 0).val < 10000 := (i 0).isLt
  have hi1 : (i 1).val < 512 := (i 1).isLt
  have hN : cfg0.N = 5 := N_0
  obtain ⟨t, ht⟩ : ∃ t : Fin cfg0.N, t.val = (i 0).val / 2000 := ⟨⟨(i 0).val / 2000, by rw [hN]; omega⟩, rfl⟩
  obtain ⟨e0, e1, e2, e3, e4, e5⟩ := idx0 t
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 512 ≤ (i 1).val ∧ (i 1).val < win0_2.index t (1 : Fin 2) * 512 + 512; omega

/-- After the first call the projected array holds the projection of the arrays the call found. -/
theorem final_proj (c : Dev nD) : (dat0 V c).arrAt 2 cfg0.N = Cert.Layer.proj (V c main_arg0) (V c main_arg2) :=
  (dat0 V c).arrAt_eq_of_cover 2 (Cert.Layer.proj (V c main_arg0) (V c main_arg2)) (fun t _ => flushed_proj V c t) cover0

end Cert.KernelIdeal.RegionValue

end
-- ==== Proof.PayAgg.lean ====
/-
  The second kernel's arithmetic at one entry of its block. The body multiplies a 200 × 10000 block of adj by the whole
  10000 × 512 array of projected features (rows of adj against columns of h) into a zero accumulator, adds the bias row
  broadcast down the block, and keeps the sum where it is at least zero and the slope times the sum elsewhere.
  At the entry (p, q) on the extended reals that is the rectifier of  Σ_k adj(p, k) · h(k, q) + b(q).
-/
import proofs.«133778_g34720515621625_cont_sun_m_1007_4_alg».proof.Proof.Gen.KernelIdeal.Skeleton
import proofs.«133778_g34720515621625_cont_sun_m_1007_4_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx

/-- The left operand's row is the output's row. -/
theorem lhs_agg_0 (i : S200x512.Idx) (k : dot_S200x10000_S10000x512_S200x512_1_0_0_1_n_n.contr.Idx) :
    (dot_S200x10000_S10000x512_S200x512_1_0_0_1_n_n.lhsIdx i k 0).val = (i 0).val := by
  unfold DotDims.lhsIdx
  rw [dif_neg (show ¬(0 : Fin S200x10000.rank) ∈ dot_S200x10000_S10000x512_S200x512_1_0_0_1_n_n.lhsBatch by decide), dif_pos (show (0 : Fin S200x10000.rank) ∈ dot_S200x10000_S10000x512_S200x512_1_0_0_1_n_n.lhsNonContracting by decide)]
  rfl
/-- The left operand's column is the contracted coordinate. -/
theorem lhs_agg_1 (i : S200x512.Idx) (k : dot_S200x10000_S10000x512_S200x512_1_0_0_1_n_n.contr.Idx) :
    (dot_S200x10000_S10000x512_S200x512_1_0_0_1_n_n.lhsIdx i k 1).val = (k ⟨0, by decide⟩).val :=
  dot_S200x10000_S10000x512_S200x512_1_0_0_1_n_n.lhsIdx_val_of_single rfl i k
/-- The right operand's row is the contracted coordinate. -/
theorem rhs_agg_0 (i : S200x512.Idx) (k : dot_S200x10000_S10000x512_S200x512_1_0_0_1_n_n.contr.Idx) :
    (dot_S200x10000_S10000x512_S200x512_1_0_0_1_n_n.rhsIdx i k 0).val = (k ⟨0, by decide⟩).val :=
  dot_S200x10000_S10000x512_S200x512_1_0_0_1_n_n.rhsIdx_val_of_single rfl i k
/-- The right operand's column is the output's column. -/
theorem rhs_agg_1 (i : S200x512.Idx) (k : dot_S200x10000_S10000x512_S200x512_1_0_0_1_n_n.contr.Idx) :
    (dot_S200x10000_S10000x512_S200x512_1_0_0_1_n_n.rhsIdx i k 1).val = (i 1).val := by
  unfold DotDims.rhsIdx
  rw [dif_neg (show ¬(1 : Fin S10000x512.rank) ∈ dot_S200x10000_S10000x512_S200x512_1_0_0_1_n_n.rhsBatch by decide), dif_pos (show (1 : Fin S10000x512.rank) ∈ dot_S200x10000_S10000x512_S200x512_1_0_0_1_n_n.rhsNonContracting by decide)]
  rfl

/-- The block product at (p, q): Σ_k adj(p, k) · h(k, q). -/
theorem matmul_agg (v0 : FVec Ideal S200x10000 .f32) (v1 : FVec Ideal S10000x512 .f32) (p : Fin 200) (q : Fin 512) :
    FloatOps.matmul dot_S200x10000_S10000x512_S200x512_1_0_0_1_n_n none v0 v1 (constant S200x512 .f32 0x00000000#32) (ix2 p q)
      = ∑ k : Fin 10000, v0 (ix2 p k) * v1 (ix2 k q) := by
  rw [Ideal.matmul_constant_zero_apply, ← Equiv.sum_comp (contrEquiv1 dot_S200x10000_S10000x512_S200x512_1_0_0_1_n_n 10000 rfl rfl).symm]
  refine Finset.sum_congr rfl fun k _ => ?_
  have hk := contrEquiv1_symm_val dot_S200x10000_S10000x512_S200x512_1_0_0_1_n_n 10000 rfl rfl k
  have el : dot_S200x10000_S10000x512_S200x512_1_0_0_1_n_n.lhsIdx (ix2 p q) ((contrEquiv1 dot_S200x10000_S10000x512_S200x512_1_0_0_1_n_n 10000 rfl rfl).symm k) = ix2 p k := funext fun a => Fin.ext (by
    match a with
    | ⟨0, _⟩ => exact lhs_agg_0 _ _
    | ⟨1, _⟩ => exact (lhs_agg_1 _ _).trans hk)
  have er : dot_S200x10000_S10000x512_S200x512_1_0_0_1_n_n.rhsIdx (ix2 p q) ((contrEquiv1 dot_S200x10000_S10000x512_S200x512_1_0_0_1_n_n 10000 rfl rfl).symm k) = ix2 k q := funext fun a => Fin.ext (by
    match a with
    | ⟨0, _⟩ => exact (rhs_agg_0 _ _).trans hk
    | ⟨1, _⟩ => exact rhs_agg_1 _ _)
  rw [el, er]

/-- The second kernel's stored value at (p, q) of its block: the rectifier, with the slope the one entry of the
    1 × 1 block, of the block product at (p, q) plus the bias row at q. -/
theorem pay_agg (v0 : FVec Ideal S200x10000 .f32) (v1 : FVec Ideal S10000x512 .f32) (v4 : FVec Ideal S1x512 .f32)
    (v10 : FVec Ideal S1x1 .f32) (p : Fin 200) (q : Fin 512) :
    k1_pay1 (F := Ideal) v0 v1 v4 v10 (ix2 p q)
      = Cert.Layer.leaky (v10 (ix2 (0 : Fin 1) (0 : Fin 1))) ((∑ k : Fin 10000, v0 (ix2 p k) * v1 (ix2 k q)) + v4 (ix2 (0 : Fin 1) q)) := by
  have e : k1_pay1 (F := Ideal) v0 v1 v4 v10 (ix2 p q)
      = Cert.Layer.leaky (extractAt ![0, 0] v10 inpos_S1x1_p0_0)
          (FloatOps.matmul dot_S200x10000_S10000x512_S200x512_1_0_0_1_n_n none v0 (shapeCast S10000x512 v1 shapeCasts_S10000x512_S10000x512) (constant S200x512 .f32 0x00000000#32) (ix2 p q)
            + broadcastTo S200x512 (shapeCast S1x512 v4 shapeCasts_S1x512_S1x512) broadcasts_S1x512_S200x512 (ix2 p q)) := rfl
  have ha : extractAt ![0, 0] v10 inpos_S1x1_p0_0 = v10 (ix2 (0 : Fin 1) (0 : Fin 1)) := by
    unfold extractAt
    refine congrArg v10 (funext fun a => Fin.ext ?_)
    match a with
    | ⟨0, _⟩ => rfl
    | ⟨1, _⟩ => rfl
  rw [e, ha, shapeCast_self, shapeCast_self, matmul_agg, broadcastTo_1b_ab_apply]

end Cert.KernelIdeal.Pay

end
-- ==== Proof.RegionAgg.lean ====
/-
  The second call's result array. Its grid has fifty points; point t stages rows 200·t … 200·t + 199 of adj, all of the
  projected array, the 1 × 512 bias row and the 1 × 1 slope, and writes back the same 200 rows of the result. An entry
  (p, q) of the block it writes is the rectifier of (row 200·t + p of adj against column q of the projected array, plus
  the bias at q): the layer's entry at the place the block lands. The fifty row blocks fill the array, so after the call
  the result holds the layer of whatever arrays the call found.
-/
import proofs.«133778_g34720515621625_cont_sun_m_1007_4_alg».proof.Proof.Gen.KernelIdeal.Frame
import proofs.«133778_g34720515621625_cont_sun_m_1007_4_alg».proof.Proof.PayAgg
import proofs.«133778_g34720515621625_cont_sun_m_1007_4_alg».proof.Proof.Spec
import Idealize.ShloMosaic.Lib.Pipeline.Value
import Idealize.ShloMosaic.Lib.ValueIdx

set_option maxRecDepth 16384

noncomputable section

namespace Cert.KernelIdeal.RegionAgg

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the fifty points: adj and the result move down by one row block per point, the other
    three windows stay at their one block. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The layer of the arrays the second call finds: adj, the projected array, the bias row and the slope cell. -/
abbrev found (c : Dev nD) : FVec Ideal S10000x512 .f32 :=
  Cert.Layer.agg (V c main_arg1) (V c main_v0) (fun q => V c main_v1 (ix2 (0 : Fin 1) q)) (V c main_v2 (ix2 (0 : Fin 1) (0 : Fin 1)))

/-- What point t of the second call writes back: block t of the layer of the arrays the call finds. -/
theorem flushed_agg (c : Dev nD) (t : Fin cfg1.N) :
    (dat1 V c).flushed 4 t = ((cfg1.win 4).blk t).view.read (Elt Ideal) (found V c) := by
  show (cfg1.win 4).cut (grid1.coords t) ((dat1 V c).after 4 t) = _
  rw [after1_4]
  unfold out1_4
  rw [View.canon_unit_zero hz]
  simp only [View.ld_unit_zero (S := S200x10000) hz, View.ld_unit_zero (S := S10000x512) hz, View.ld_unit_zero (S := S1x512) hz,
    View.ld_unit_zero (S := S1x1) hz]
  obtain ⟨e0, e1, e2, e3, e4, e5, e6, e7, e8, e9⟩ := idx1 t
  funext j
  obtain ⟨p, q, rfl⟩ : ∃ (p : Fin 200) (q : Fin 512), j = ix2 p q := ⟨j 0, j 1, eq_ix2 j⟩
  show k1_pay1 (F := Ideal) (iblk1 V c 0 t) (iblk1 V c 1 t) (iblk1 V c 2 t) (iblk1 V c 3 t) (ix2 p q)
    = found V c (((cfg1.win 4).blk t).view.emb (ix2 p q))
  refine (Cert.KernelIdeal.Pay.pay_agg (iblk1 V c 0 t) (iblk1 V c 1 t) (iblk1 V c 2 t) (iblk1 V c 3 t) p q).trans ?_
  unfold found Cert.Layer.agg Cert.Layer.aggAt
  -- the slope cell is the same cell at every point
  have h3 : iblk1 V c 3 t (ix2 (0 : Fin 1) (0 : Fin 1)) = V c main_v2 (ix2 (0 : Fin 1) (0 : Fin 1)) := by
    show V c main_v2 (((cfg1.win 3).blk t).view.emb (ix2 (0 : Fin 1) (0 : Fin 1))) = _
    refine congrArg (V c main_v2) (funext fun a => Fin.ext ?_)
    match a with
    | ⟨0, _⟩ => show win1_3.index t (0 : Fin 2) * 1 + 1 * 0 = 0; omega
    | ⟨1, _⟩ => show win1_3.index t (1 : Fin 2) * 1 + 1 * 0 = 0; omega
  -- the bias row is the same row at every point
  have h2 : iblk1 V c 2 t (ix2 (0 : Fin 1) q) = V c main_v1 (ix2 (0 : Fin 1) (((cfg1.win 4).blk t).view.emb (ix2 p q) 1)) := by
    show V c main_v1 (((cfg1.win 2).blk t).view.emb (ix2 (0 : Fin 1) q)) = _
    refine congrArg (V c main_v1) (funext fun a => Fin.ext ?_)
    match a with
    | ⟨0, _⟩ => show win1_2.index t (0 : Fin 2) * 1 + 1 * 0 = 0; omega
    | ⟨1, _⟩ => show win1_2.index t (1 : Fin 2) * 512 + 1 * q.val = win1_4.index t (1 : Fin 2) * 512 + 1 * q.val; omega
  -- the block of adj at point t is rows 200·t … of adj, every column
  have h0 : ∀ k : Fin 10000, iblk1 V c 0 t (ix2 p k) = V c main_arg1 (ix2 (((cfg1.win 4).blk t).view.emb (ix2 p q) 0) k) := fun k => by
    show V c main_arg1 (((cfg1.win 0).blk t).view.emb (ix2 p k)) = _
    refine congrArg (V c main_arg1) (funext fun a => Fin.ext ?_)
    match a with
    | ⟨0, _⟩ => show win1_0.index t (0 : Fin 2) * 200 + 1 * p.val = win1_4.index t (0 : Fin 2) * 200 + 1 * p.val; omega
    | ⟨1, _⟩ => show win1_0.index t (1 : Fin 2) * 10000 + 1 * k.val = k.val; omega
  -- the block of the projected array is all of it at every point
  have h1 : ∀ k : Fin 10000, iblk1 V c 1 t (ix2 k q) = V c main_v0 (ix2 k (((cfg1.win 4).blk t).view.emb (ix2 p q) 1)) := fun k => by
    show V c main_v0 (((cfg1.win 1).blk t).view.emb (ix2 k q)) = _
    refine congrArg (V c main_v0) (funext fun a => Fin.ext ?_)
    match a with
    | ⟨0, _⟩ => show win1_1.index t (0 : Fin 2) * 10000 + 1 * k.val = k.val; omega
    | ⟨1, _⟩ => show win1_1.index t (1 : Fin 2) * 512 + 1 * q.val = win1_4.index t (1 : Fin 2) * 512 + 1 * q.val; omega
  rw [h3, h2]
  refine congrArg (fun s => Cert.Layer.leaky _ (s + _)) (Finset.sum_congr rfl fun k _ => ?_)
  rw [h0 k, h1 k]

/-- An index of the result array is in point t's block iff each coordinate is in the block's range on its axis. -/
theorem mem_blk1 (t : Fin cfg1.N) (i : S10000x512.Idx) :
    i ∈ ((cfg1.win 4).blk t).view.set ↔ ∀ a : Fin 2, win1_4.index t a * S200x512.size a ≤ (i a).val ∧ (i a).val < win1_4.index t a * S200x512.size a + S200x512.size a := by
  show i ∈ ((View.whole main_v3).slice (win1_4.rect t)).set ↔ _
  rw [View.set_slice_whole, Rect.mem_set_unit]
  exact Iff.rfl

/-- The fifty row blocks of 200 rows fill the 10000 rows: row r is in the block of point r / 200. -/
theorem cover1 (i : S10000x512.Idx) : ∃ t : Fin cfg1.N, (cfg1.win 4).flush t = true ∧ i ∈ ((cfg1.win 4).blk t).view.set := by
  have hi0 : (i 0).val < 10000 := (i 0).isLt
  have hi1 : (i 1).val < 512 := (i 1).isLt
  have hN : cfg1.N = 50 := N_1
  obtain ⟨t, ht⟩ : ∃ t : Fin cfg1.N, t.val = (i 0).val / 200 := ⟨⟨(i 0).val / 200, by rw [hN]; omega⟩, rfl⟩
  obtain ⟨e0, e1, e2, e3, e4, e5, e6, e7, e8, e9⟩ := idx1 t
  refine ⟨t, flush1_4 t, ?_⟩
  rw [mem_blk1]
  intro a
  match a with
  | ⟨0, _⟩ => show win1_4.index t (0 : Fin 2) * 200 ≤ (i 0).val ∧ (i 0).val < win1_4.index t (0 : Fin 2) * 200 + 200; omega
  | ⟨1, _⟩ => show win1_4.index t (1 : Fin 2) * 512 ≤ (i 1).val ∧ (i 1).val < win1_4.index t (1 : Fin 2) * 512 + 512; omega

/-- After the second call the result array holds the layer of the arrays the call found. -/
theorem final_agg (c : Dev nD) : (dat1 V c).arrAt 4 cfg1.N = found V c :=
  (dat1 V c).arrAt_eq_of_cover 4 (found V c) (fun t _ => flushed_agg V c t) cover1

end Cert.KernelIdeal.RegionAgg

end
-- ==== Proof.KernelWhole.lean ====
/-
  The kernel program's result as one function of its arguments. The program is two calls with two reshapes between
  them. The first call leaves the projection of x and W in the intermediate array; the reshapes turn the bias into a
  1 × 512 row and the slope into a 1 × 1 cell and touch nothing else; the second call reads adj as launched, the
  intermediate array as the first call left it, the row and the cell, and leaves the layer of those in the result
  array. Put together, the result array ends at the layer of the five arguments as launched.
-/
import proofs.«133778_g34720515621625_cont_sun_m_1007_4_alg».proof.Proof.Gen.KernelIdeal.Frame
import proofs.«133778_g34720515621625_cont_sun_m_1007_4_alg».proof.Proof.RegionProj
import proofs.«133778_g34720515621625_cont_sun_m_1007_4_alg».proof.Proof.RegionAgg
import proofs.«133778_g34720515621625_cont_sun_m_1007_4_alg».proof.Proof.Spec
import Idealize.ShloMosaic.Lib.StableHlo.Run
import Idealize.ShloMosaic.Lib.ValueLayout

set_option maxRecDepth 16384

noncomputable section

namespace Cert.KernelIdeal.Whole

open Cert.KernelIdeal Cert.KernelIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg)

/-- The two reshapes between the calls write only the bias row and the slope cell. -/
theorem reshapes_keep (c : Dev nD) (b : Ref sig .tc) (h1 : b ≠ main_v1) (h2 : b ≠ main_v2) :
    W2 m ρ c (Proc.devRef .tc b) = W1 m ρ c (Proc.devRef .tc b) :=
  StableHlo.after_of_forall_not_mem (b := Proc.devRef .tc b) _ _ (List.forall_iff_forall_mem.mp (by
    simp only [hostOps1, List.Forall, StableHlo.reshape_writes, Finset.mem_singleton]
    exact ⟨StableHlo.devRef_ne_of_ne h1, StableHlo.devRef_ne_of_ne h2⟩))

/-- The second call finds adj as launched. -/
theorem entry_adj (c : Dev nD) : V2 m ρ c main_arg1 = m ((c : Thread nD τ).loc main_arg1) :=
  calc W2 m ρ c (Proc.devRef .tc main_arg1)
    _ = W1 m ρ c (Proc.devRef .tc main_arg1) := reshapes_keep m ρ c main_arg1 (by decide) (by decide)
    _ = W0 m ρ c (Proc.devRef .tc main_arg1) := W1_of_ne m ρ c main_arg1 (by decide)
    _ = m ((c : Thread nD τ).loc main_arg1) := rfl

/-- The second call finds, in the intermediate array, the projection of x and W as launched. -/
theorem entry_proj (c : Dev nD) :
    V2 m ρ c main_v0 = Cert.Layer.proj (m ((c : Thread nD τ).loc main_arg0)) (m ((c : Thread nD τ).loc main_arg2)) :=
  calc W2 m ρ c (Proc.devRef .tc main_v0)
    _ = W1 m ρ c (Proc.devRef .tc main_v0) := reshapes_keep m ρ c main_v0 (by decide) (by decide)
    _ = (dat0 (V0 m ρ) c).arrAt 2 cfg0.N := W1_arr m ρ c 2
    _ = Cert.Layer.proj (V0 m ρ c main_arg0) (V0 m ρ c main_arg2) := Cert.KernelIdeal.RegionValue.final_proj (V0 m ρ) c
    _ = Cert.Layer.proj (m ((c : Thread nD τ).loc main_arg0)) (m ((c : Thread nD τ).loc main_arg2)) := rfl

/-- The bias row the second call finds is the launched bias recast to 1 × 512. -/
theorem entry_bias (c : Dev nD) :
    V2 m ρ c main_v1 = shapeCast S1x512 (m ((c : Thread nD τ).loc main_arg3)) shapeCasts_S512_S1x512 := by
  have e : W2 m ρ c (Proc.devRef .tc main_v1) = shapeCast S1x512 (W1 m ρ c (Proc.devRef .tc main_arg3)) shapeCasts_S512_S1x512 := by
    show StableHlo.after hostOps1 (W1 m ρ c) (Proc.devRef .tc main_v1) = _
    after_results
    rfl
  refine e.trans ?_
  rw [W1_of_ne m ρ c main_arg3 (by decide)]

/-- The slope cell the second call finds is the launched slope recast to 1 × 1. -/
theorem entry_slope (c : Dev nD) :
    V2 m ρ c main_v2 = shapeCast S1x1 (m ((c : Thread nD τ).loc main_arg4)) shapeCasts_S_S1x1 := by
  have e : W2 m ρ c (Proc.devRef .tc main_v2) = shapeCast S1x1 (W1 m ρ c (Proc.devRef .tc main_arg4)) shapeCasts_S_S1x1 := by
    show StableHlo.after hostOps1 (W1 m ρ c) (Proc.devRef .tc main_v2) = _
    after_results
    rfl
  refine e.trans ?_
  rw [W1_of_ne m ρ c main_arg4 (by decide)]

/-- The result array after the run is the layer of the five arguments as launched. -/
theorem result_eq (c : Dev nD) :
    W3 m ρ c (Proc.devRef .tc main_v3)
      = Cert.Layer.layer (m ((c : Thread nD τ).loc main_arg0)) (m ((c : Thread nD τ).loc main_arg1)) (m ((c : Thread nD τ).loc main_arg2))
          (m ((c : Thread nD τ).loc main_arg3)) (m ((c : Thread nD τ).loc main_arg4)) := by
  refine (W3_arr m ρ c 4).trans ?_
  rw [Cert.KernelIdeal.RegionAgg.final_agg]
  show Cert.Layer.agg (V2 m ρ c main_arg1) (V2 m ρ c main_v0) (fun q => V2 m ρ c main_v1 (ix2 (0 : Fin 1) q))
      (V2 m ρ c main_v2 (ix2 (0 : Fin 1) (0 : Fin 1))) = _
  rw [entry_adj m ρ c, entry_proj m ρ c, entry_bias m ρ c, entry_slope m ρ c]
  unfold Cert.Layer.layer
  -- the recast bias row at (0, q) is the bias at q; the recast slope cell is the slope itself
  congr 1
  funext q
  exact shapeCast_a_1a_apply _ _ 0 q

end Cert.KernelIdeal.Whole

end
-- ==== Proof.RefIsLayer.lean ====
/-
  The reference computes the layer. Read one operation at a time, its result at the entry (p, q) is
    the rectifier of  Σ_k adj(p, k) · h(k, q) + b(q),  with  h(k, q) = Σ_l x(k, l) · Wᵀ(l, q) = Σ_l x(k, l) · W(q, l):
  the transpose only renames the weight's coordinates, the two broadcasts of the bias read b at the column q, and the
  broadcast slope is the one number a.
-/
import proofs.«133778_g34720515621625_cont_sun_m_1007_4_alg».proof.Proof.Gen.ReferenceIdeal.Run
import proofs.«133778_g34720515621625_cont_sun_m_1007_4_alg».proof.Proof.Gen.ReferenceIdeal.Read
import proofs.«133778_g34720515621625_cont_sun_m_1007_4_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The reference's first product at (k, q) is the projection's entry: x's row k against W's row q. -/
theorem v1_is_proj (x0 : (⟨S10000x512, .f32⟩ : BufTy).Contents (Elt Ideal)) (x2 : (⟨S512x512, .f32⟩ : BufTy).Contents (Elt Ideal))
    (k : Fin 10000) (q : Fin 512) : val_main_v1 (F := Ideal) x0 x2 (ix2 k q) = Cert.Layer.projAt x0 x2 k q := by
  rw [val_main_v1_apply]
  unfold Cert.Layer.projAt
  refine Finset.sum_congr rfl fun l _ => ?_
  rw [val_main_v0_apply]
  have e1 : lidx_main_v1 (ix2 k q) l = ix2 k l := funext fun a => Fin.ext (by
    match a with
    | ⟨0, _⟩ => rfl
    | ⟨1, _⟩ => rfl)
  have e2 : idx_main_v0 (ridx_main_v1 (ix2 k q) l) = ix2 q l := funext fun a => Fin.ext (by
    match a with
    | ⟨0, _⟩ => rfl
    | ⟨1, _⟩ => rfl)
  rw [e1, e2]

/-- The reference's sum before the rectifier, at (p, q): adj's row p against the projection's column q, plus b(q). -/
theorem v5_is_sum (x0 : (⟨S10000x512, .f32⟩ : BufTy).Contents (Elt Ideal)) (x1 : (⟨S10000x10000, .f32⟩ : BufTy).Contents (Elt Ideal))
    (x2 : (⟨S512x512, .f32⟩ : BufTy).Contents (Elt Ideal)) (x3 : (⟨S512, .f32⟩ : BufTy).Contents (Elt Ideal)) (p : Fin 10000) (q : Fin 512) :
    val_main_v5 (F := Ideal) x0 x1 x2 x3 (ix2 p q)
      = (∑ k : Fin 10000, x1 (ix2 p k) * Cert.Layer.proj x0 x2 (ix2 k q)) + x3 (ix1 q) := by
  rw [val_main_v5_apply, val_main_v2_apply, val_main_v4_apply, val_main_v3_apply]
  have e3 : idx_main_v3 (idx_main_v4 (ix2 p q)) = ix1 q := funext fun a => Fin.ext (by
    match a with
    | ⟨0, _⟩ => rfl)
  rw [e3]
  show (∑ k : Fin 10000, x1 (lidx_main_v2 (ix2 p q) k) * val_main_v1 (F := Ideal) x0 x2 (ridx_main_v2 (ix2 p q) k)) + x3 (ix1 q) = _
  refine congrArg (· + x3 (ix1 q)) (Finset.sum_congr rfl fun k _ => ?_)
  have e1 : lidx_main_v2 (ix2 p q) k = ix2 p k := funext fun a => Fin.ext (by
    match a with
    | ⟨0, _⟩ => rfl
    | ⟨1, _⟩ => rfl)
  have e2 : ridx_main_v2 (ix2 p q) k = ix2 k q := funext fun a => Fin.ext (by
    match a with
    | ⟨0, _⟩ => rfl
    | ⟨1, _⟩ => rfl)
  rw [e1, e2, v1_is_proj, Cert.Layer.proj_apply]

/-- The reference's result array is the layer of its five arguments. -/
theorem ref_is_layer (x0 : (⟨S10000x512, .f32⟩ : BufTy).Contents (Elt Ideal)) (x1 : (⟨S10000x10000, .f32⟩ : BufTy).Contents (Elt Ideal))
    (x2 : (⟨S512x512, .f32⟩ : BufTy).Contents (Elt Ideal)) (x3 : (⟨S512, .f32⟩ : BufTy).Contents (Elt Ideal))
    (x4 : (⟨S_, .f32⟩ : BufTy).Contents (Elt Ideal)) :
    val_main_v10 (F := Ideal) x0 x1 x2 x3 x4 = Cert.Layer.layer x0 x1 x2 x3 x4 := by
  funext i
  obtain ⟨p, q, rfl⟩ : ∃ (p : Fin 10000) (q : Fin 512), i = ix2 p q := ⟨i 0, i 1, eq_ix2 i⟩
  rw [val_main_v10_apply, val_main_v7_apply, val_main_v9_apply, val_main_v8_apply, val_main_v6_apply, val_main_cst_apply, v5_is_sum]
  rfl

end Cert.ReferenceIdeal.RefValue

end
-- ==== Proof.lean ====
/-
  The certificate of one graph-convolution layer,  out = PReLU_a(adj · (x · Wᵀ) + b),  computed by a kernel program of two
  tiled calls against a plain array program.

  The mathematics. On the extended reals both programs compute, at every entry (p, q),
      the rectifier with slope a of   Σ_k adj(p, k) · (Σ_l x(k, l) · W(q, l)) + b(q),
  with the SAME grouping of the two sums: the kernel's first call forms the inner sums (the projection x · Wᵀ, five row
  blocks of 2000 rows, each a product contracted over the second axis of both operands), its second call the outer sum,
  the bias and the rectifier (fifty row blocks of 200 rows, each against the whole projected array); the reference
  transposes W, takes the two products whole, broadcasts the bias and the slope, and selects. A product into a zero
  accumulator and a host product are both the plain sum over the contracted coordinate; a transpose, a reshape and a
  broadcast only rename coordinates; the comparison, the product with the slope and the selection are the same three
  operations on the same number on both sides. So no law of the extended reals is used beyond reading each operation at
  an index, and the precondition (finite inputs) is never opened.

  The pieces. Spec states the layer as one function of the five arguments. PayProj and PayAgg read the two kernel
  bodies' stored values at an entry; RegionProj and RegionAgg carry that from a block to the whole array each call
  writes (the row blocks fill it); KernelWhole threads the two calls and the reshapes between them, so that the kernel
  program's result array is the layer of the arguments; KernelRun is the program's run with the result array named.
  RefIsLayer reads the reference's run, one operation at a time, as the same function. The three frames are the
  generated ones (the reference's is its run with the result dropped), and the idealization rewrote nothing, so
  preserves is trivial.
-/
import proofs.«133778_g34720515621625_cont_sun_m_1007_4_alg».proof.Defs
import proofs.«133778_g34720515621625_cont_sun_m_1007_4_alg».proof.Proof.Gen.Kernel
import proofs.«133778_g34720515621625_cont_sun_m_1007_4_alg».proof.Proof.Gen.Kernel.Frame
import proofs.«133778_g34720515621625_cont_sun_m_1007_4_alg».proof.Proof.Gen.KernelIdeal
import proofs.«133778_g34720515621625_cont_sun_m_1007_4_alg».proof.Proof.Gen.KernelIdeal.Frame
import proofs.«133778_g34720515621625_cont_sun_m_1007_4_alg».proof.Proof.Gen.ReferenceIdeal
import proofs.«133778_g34720515621625_cont_sun_m_1007_4_alg».proof.Proof.Gen.ReferenceIdeal.Run
import proofs.«133778_g34720515621625_cont_sun_m_1007_4_alg».proof.Proof.Gen.ReferenceIdeal.Read
import proofs.«133778_g34720515621625_cont_sun_m_1007_4_alg».proof.Proof.Gen.Pre_finite_inputs
import proofs.«133778_g34720515621625_cont_sun_m_1007_4_alg».proof.Proof.KernelRun
import proofs.«133778_g34720515621625_cont_sun_m_1007_4_alg».proof.Proof.KernelWhole
import proofs.«133778_g34720515621625_cont_sun_m_1007_4_alg».proof.Proof.RefIsLayer
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the five arguments both programs end with the layer of those arguments in their
    result arrays: the kernel program by its two calls threaded together, the reference by its operations read
    one at a time. -/
theorem algebraic : Cert.algebraic_KernelIdeal_ReferenceIdeal := by
  intro m ρ m' ρ' _ hagree
  refine ⟨fun c => Cert.Layer.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.Whole.result_eq m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v10_eq, Cert.ReferenceIdeal.RefValue.ref_is_layer,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
